-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S1x1 : Shape := ⟨2, ![1, 1]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S16777216x2 .f32) (main_arg1 : FVec F S1x1 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  main_v8
-- ==== Kernel.lean ====
abbrev S16777216x2 : Shape := ⟨2, ![16777216, 2]⟩
abbrev S1x1 : Shape := ⟨2, ![1, 1]⟩
abbrev S131072x256 : Shape := ⟨2, ![131072, 256]⟩
abbrev S_ : Shape := ⟨0, ![]⟩
abbrev S256 : Shape := ⟨1, ![256]⟩
abbrev S128 : Shape := ⟨1, ![128]⟩
abbrev S256x1 : Shape := ⟨2, ![256, 1]⟩
abbrev S1x128 : Shape := ⟨2, ![1, 128]⟩
abbrev S256x128 : Shape := ⟨2, ![256, 128]⟩
abbrev S131072x128 : Shape := ⟨2, ![131072, 128]⟩
abbrev S4096x256 : Shape := ⟨2, ![4096, 256]⟩
abbrev S4096x128 : Shape := ⟨2, ![4096, 128]⟩
abbrev S16777216x1 : Shape := ⟨2, ![16777216, 1]⟩

abbrev nBuf : Space → Nat
  | .hbm => 68
  | .vmem => 5
  | .smem => 0
  | _ => 0

abbrev bufTy : (tb : Table) → Fin (tcTables nBuf tb) → BufTy
  | .hbm, ⟨0, _⟩ => ⟨S16777216x2, .f32⟩
  | .hbm, ⟨1, _⟩ => ⟨S1x1, .f32⟩
  | .hbm, ⟨2, _⟩ => ⟨S131072x256, .f32⟩
  | .hbm, ⟨3, _⟩ => ⟨S_, .f32⟩
  | .hbm, ⟨4, _⟩ => ⟨S256, .i32⟩
  | .hbm, ⟨5, _⟩ => ⟨S128, .i32⟩
  | .hbm, ⟨6, _⟩ => ⟨S256x1, .i32⟩
  | .hbm, ⟨7, _⟩ => ⟨S_, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S_, .i32⟩
  | .hbm, ⟨13, _⟩ => ⟨S256x1, .i32⟩
  | .hbm, ⟨14, _⟩ => ⟨S256x1, .i1⟩
  | .hbm, ⟨15, _⟩ => ⟨S256x1, .i32⟩
  | .hbm, ⟨16, _⟩ => ⟨S256x1, .i32⟩
  | .hbm, ⟨17, _⟩ => ⟨S_, .i32⟩
  | .hbm, ⟨18, _⟩ => ⟨S256x1, .i32⟩
  | .hbm, ⟨19, _⟩ => ⟨S256x1, .i1⟩
  | .hbm, ⟨20, _⟩ => ⟨S256x1, .i1⟩
  | .hbm, ⟨21, _⟩ => ⟨S_, .i32⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S1x128, .i32⟩
  | .hbm, ⟨26, _⟩ => ⟨S256x128, .i32⟩
  | .hbm, ⟨27, _⟩ => ⟨S256x128, .i32⟩
  | .hbm, ⟨28, _⟩ => ⟨S256x128, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S_, .i32⟩
  | .hbm, ⟨38, _⟩ => ⟨S256, .i32⟩
  | .hbm, ⟨39, _⟩ => ⟨S256, .i1⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S_, .i1⟩
  | .hbm, ⟨45, _⟩ => ⟨S256, .i1⟩
  | .hbm, ⟨46, _⟩ => ⟨S256, .i1⟩
  | .hbm, ⟨47, _⟩ => ⟨S256, .i1⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S256x1, .i1⟩
  | .hbm, ⟨55, _⟩ => ⟨S_, .f32⟩
  | .hbm, ⟨56, _⟩ => ⟨S_, .f32⟩
  | .hbm, ⟨57, _⟩ => ⟨S256x1, .f32⟩
  | .hbm, ⟨58, _⟩ => ⟨S256x1, .f32⟩
  | .hbm, ⟨59, _⟩ => ⟨S256x1, .f32⟩
  | .hbm, ⟨60, _⟩ => ⟨S_, .f32⟩
  | .hbm, ⟨61, _⟩ => ⟨S256x1, .f32⟩
  | .hbm, ⟨62, _⟩ => ⟨S256x128, .f32⟩
  | .hbm, ⟨63, _⟩ => ⟨S256x128, .f32⟩
  | .hbm, ⟨64, _⟩ => ⟨S256x128, .f32⟩
  | .hbm, ⟨65, _⟩ => ⟨S256x128, .bf16⟩
  | .hbm, ⟨66, _⟩ => ⟨S131072x128, .f32⟩
  | .hbm, ⟨67, _⟩ => ⟨S16777216x1, .f32⟩
  | .local _ .vmem, ⟨0, _⟩ => ⟨S4096x256, .f32⟩
  | .local _ .vmem, ⟨1, _⟩ => ⟨S4096x256, .f32⟩
  | .local _ .vmem, ⟨2, _⟩ => ⟨S256x128, .bf16⟩
  | .local _ .vmem, ⟨3, _⟩ => ⟨S4096x128, .f32⟩
  | .local _ .vmem, ⟨4, _⟩ => ⟨S4096x128, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v10 : Ref sig .tc := ⟨.hbm, 50, rfl⟩
abbrev main_c_1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst : Ref sig .tc := ⟨.hbm, 55, rfl⟩
abbrev main_v14 : Ref sig .tc := ⟨.hbm, 56, rfl⟩
abbrev main_call2_v0 : Ref sig .tc := ⟨.hbm, 57, rfl⟩
abbrev main_call2_v1 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_call3_v0 : Ref sig .tc := ⟨.hbm, 62, rfl⟩
abbrev main_call3_v1 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16777216x2_S131072x256 : S16777216x2.ShapeCasts S131072x256
  shapeCasts_S1x1_S_ : S1x1.ShapeCasts S_
  bcast_S256_S256x1_0 : S256.BroadcastsInDim S256x1 (![0] : Fin 1 → Fin S256x1.rank)
  bcast_S_S256x1 : S_.BroadcastsInDim S256x1 (![] : Fin 0 → Fin S256x1.rank)
  bcast_S128_S1x128_1 : S128.BroadcastsInDim S1x128 (![1] : Fin 1 → Fin S1x128.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S_S256 : S_.BroadcastsInDim S256 (![] : Fin 0 → Fin S256.rank)
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x128_S4096x128_0_0 : ∀ a, (![0, 0] : Fin 2 → Nat) a + S4096x128.size a ≤ S4096x128.size a
  h_S4096x128 : 0 < S4096x128.numel
  shapeCasts_S131072x128_S16777216x1 : S131072x128.ShapeCasts S16777216x1
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S1x1 : Shape := ⟨2, ![1, 1]⟩
abbrev S_ : Shape := ⟨0, ![]⟩
abbrev S16777216x1 : Shape := ⟨2, ![16777216, 1]⟩
abbrev S16777216 : Shape := ⟨1, ![16777216]⟩

abbrev nBuf : Space → Nat
  | .hbm => 15
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S1x1, .f32⟩
  | .hbm, ⟨2, _⟩ => ⟨S_, .f32⟩
  | .hbm, ⟨3, _⟩ => ⟨S16777216x1, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S16777216x1, .f32⟩
  | .hbm, ⟨8, _⟩ => ⟨S16777216, .f32⟩
  | .hbm, ⟨9, _⟩ => ⟨S_, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S16777216x1, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  shapeCasts_S1x1_S_ : S1x1.ShapeCasts S_
  slices_S16777216x2_S16777216x1_0_0 : S16777216x2.Slices ![0, 0] S16777216x1
  shapeCasts_S16777216x1_S16777216 : S16777216x1.ShapeCasts S16777216
  bcast_S_S16777216 : S_.BroadcastsInDim S16777216 (![] : Fin 0 → Fin S16777216.rank)
  slices_S16777216x2_S16777216x1_0_1 : S16777216x2.Slices ![0, 1] S16777216x1
  bcast_S16777216_S16777216x1_0 : S16777216.BroadcastsInDim S16777216x1 (![0] : Fin 1 → Fin S16777216x1.rank)

variable [Facts₀]

class Facts : Prop extends Facts₀ where

variable [Facts]
-- ==== Proof.Blend.lean ====
/-
  The arithmetic both programs compute, stated once over plain index types.

  Row `i` of the result is `x i 0 * w + x i 1 * (1 - w)`: a blend of the two columns of `x` with weights
  `w` and `1 - w`.  One program forms it directly.  The other lays 128 consecutive rows of `x` side by
  side as 256 interleaved entries and multiplies by a 256 × 128 selection matrix whose column `k` holds
  `w` at position `2k`, `1 - w` at position `2k + 1` and zero elsewhere; the sum over the 256 positions
  then keeps exactly the two entries of row `k`.  On the extended reals `a * 0 = 0` for every `a`, so the
  254 other terms vanish whatever the entries are, and no bound on the entries is needed.
-/
import Idealize.ShloMosaic.PureOps.Ideal
import Idealize.ShloMosaic.Lib.ValueIdx
import Idealize.ShloMosaic.Lib.Pipeline.Value

noncomputable section

open scoped BigOperators

namespace Cert.Blend

open Idealize.ShloMosaic Idealize.ShloMosaic.ValueIdx

/-- Position `2k` of the 256 interleaved entries: column 0 of the `k`-th packed row. -/
abbrev evenPos (k : Fin 128) : Fin 256 := ⟨2 * k.val, by have := k.isLt; omega⟩
/-- Position `2k + 1`: column 1 of the `k`-th packed row. -/
abbrev oddPos (k : Fin 128) : Fin 256 := ⟨2 * k.val + 1, by have := k.isLt; omega⟩

/-- Entry `(j, k)` of the selection matrix with weights `a` (even positions) and `b` (odd positions). -/
def sel (a b : EReal) (j : Fin 256) (k : Fin 128) : EReal :=
  if j.val / 2 = k.val then (if j.val % 2 = 0 then a else b) else 0

theorem sel_even (a b : EReal) (k : Fin 128) : sel a b (evenPos k) k = a := by
  unfold sel
  rw [if_pos (by show 2 * k.val / 2 = k.val; omega), if_pos (by show 2 * k.val % 2 = 0; omega)]

theorem sel_odd (a b : EReal) (k : Fin 128) : sel a b (oddPos k) k = b := by
  unfold sel
  rw [if_pos (by show (2 * k.val + 1) / 2 = k.val; omega), if_neg (by show ¬ (2 * k.val + 1) % 2 = 0; omega)]

theorem sel_other (a b : EReal) (j : Fin 256) (k : Fin 128) (h0 : j ≠ evenPos k) (h1 : j ≠ oddPos k) :
    sel a b j k = 0 := by
  have e0 : j.val ≠ 2 * k.val := fun h => h0 (Fin.ext h)
  have e1 : j.val ≠ 2 * k.val + 1 := fun h => h1 (Fin.ext h)
  unfold sel
  rw [if_neg (by omega)]

/-- A sum over the 256 positions against column `k` of the selection matrix keeps positions `2k` and `2k + 1`. -/
theorem sum_sel (X : Fin 256 → EReal) (a b : EReal) (k : Fin 128) :
    ∑ j : Fin 256, X j * sel a b j k = X (evenPos k) * a + X (oddPos k) * b := by
  refine (Finset.sum_eq_add (evenPos k) (oddPos k) ?_ ?_ ?_ ?_).trans ?_
  · intro h
    have := congrArg Fin.val h
    change 2 * k.val = 2 * k.val + 1 at this
    omega
  · intro c _ hc
    rw [sel_other a b c k hc.1 hc.2, mul_zero]
  · intro h; exact absurd (Finset.mem_univ _) h
  · intro h; exact absurd (Finset.mem_univ _) h
  · rw [sel_even, sel_odd]

/-- The literal `1.0`. -/
abbrev one : EReal := Ideal.ofBits .f32 0x3F800000#32

/-- The blend: row `i` of the result from the two columns of `x`. -/
def blend (x : (⟨2, ![16777216, 2]⟩ : Shape).Idx → EReal) (w : EReal) : (⟨2, ![16777216, 1]⟩ : Shape).Idx → EReal :=
  fun i => x (ix2 (i 0) (0 : Fin 2)) * w + x (ix2 (i 0) (1 : Fin 2)) * (one - w)

/-- All 131072 packed rows `X` times a 256 × 128 matrix `M`, entry by entry. -/
def rowsTimes (X : (⟨2, ![131072, 256]⟩ : Shape).Idx → EReal) (M : (⟨2, ![256, 128]⟩ : Shape).Idx → EReal) :
    (⟨2, ![131072, 128]⟩ : Shape).Idx → EReal :=
  fun i => ∑ j : Fin 256, X (ix2 (i 0) j) * M (ix2 j (i 1))

/-- Packing, multiplying by the selection matrix and unpacking is the blend.  Row `i` of `x` is packed into row
    `i / 128` at positions `2 (i % 128)` and `2 (i % 128) + 1` (the arrays are row-major and `2 · 128 = 256`), and entry
    `(i / 128, i % 128)` of the product is row `i` of the one-column result. -/
theorem unpack (x : (⟨2, ![16777216, 2]⟩ : Shape).Idx → EReal) (w : EReal)
    (M : (⟨2, ![256, 128]⟩ : Shape).Idx → EReal) (hM : ∀ (j : Fin 256) (k : Fin 128), M (ix2 j k) = sel w (one - w) j k)
    (h1 : (⟨2, ![16777216, 2]⟩ : Shape).ShapeCasts ⟨2, ![131072, 256]⟩)
    (h2 : (⟨2, ![131072, 128]⟩ : Shape).ShapeCasts ⟨2, ![16777216, 1]⟩) :
    shapeCast ⟨2, ![16777216, 1]⟩ (rowsTimes (shapeCast ⟨2, ![131072, 256]⟩ x h1) M) h2 = blend x w := by
  funext i
  have hi0 : (i 0).val < 16777216 := (i 0).isLt
  have hi1 : (i 1).val < 1 := (i 1).isLt
  let r : Fin 131072 := ⟨(i 0).val / 128, by omega⟩
  let k : Fin 128 := ⟨(i 0).val % 128, by omega⟩
  rw [shapeCast_apply _ h2 i (ix2 r k) (by
    rw [Shape.rowMajor_val_two, Shape.rowMajor_val_two]
    show (i 0).val / 128 * 128 + (i 0).val % 128 = (i 0).val * 1 + (i 1).val
    omega)]
  show ∑ j : Fin 256, shapeCast ⟨2, ![131072, 256]⟩ x h1 (ix2 r j) * M (ix2 j k) = _
  simp only [hM]
  refine (sum_sel (fun j => shapeCast ⟨2, ![131072, 256]⟩ x h1 (ix2 r j)) w (one - w) k).trans ?_
  show shapeCast ⟨2, ![131072, 256]⟩ x h1 (ix2 r (evenPos k)) * w + shapeCast ⟨2, ![131072, 256]⟩ x h1 (ix2 r (oddPos k)) * (one - w) = _
  rw [shapeCast_apply x h1 (ix2 r (evenPos k)) (ix2 (i 0) (0 : Fin 2)) (by
      rw [Shape.rowMajor_val_two, Shape.rowMajor_val_two]
      show (i 0).val * 2 + 0 = (i 0).val / 128 * 256 + 2 * ((i 0).val % 128)
      omega),
    shapeCast_apply x h1 (ix2 r (oddPos k)) (ix2 (i 0) (1 : Fin 2)) (by
      rw [Shape.rowMajor_val_two, Shape.rowMajor_val_two]
      show (i 0).val * 2 + 1 = (i 0).val / 128 * 256 + (2 * ((i 0).val % 128) + 1)
      omega)]
  rfl

end Cert.Blend

end
-- ==== Proof.RefBlend.lean ====
/-
  The reference program read at an index.  Its operations take column 0 and column 1 of `x`, scale the
  first by the weight `w` (the one entry of the 1 × 1 array) and the second by `1 - w`, and add: row `i`
  of the result is `x i 0 * w + x i 1 * (1 - w)`, which is the blend of Proof/Blend.lean.
-/
import proofs.«408483_j35527969472878_3_alg».proof.Proof.Gen.ReferenceIdeal.Run
import proofs.«408483_j35527969472878_3_alg».proof.Proof.Gen.ReferenceIdeal.Read
import proofs.«408483_j35527969472878_3_alg».proof.Proof.Blend
import Idealize.ShloMosaic.Lib.Pipeline.Value
import Idealize.ShloMosaic.Lib.ValueIdx

noncomputable section

namespace Cert.ReferenceIdeal.Direct

open Cert.ReferenceIdeal Cert.ReferenceIdeal.Gen Cert.ReferenceIdeal.Read Idealize.ShloMosaic Idealize.ShloMosaic.ValueIdx

/-- The 1 × 1 weight array recast as a scalar holds its one entry. -/
theorem weight_apply (x1 : (⟨S1x1, .f32⟩ : BufTy).Contents (Elt Ideal)) (j : S_.Idx) :
    val_main_v0 (F := Ideal) x1 j = x1 (ix2 (0 : Fin 1) (0 : Fin 1)) := by
  unfold val_main_v0
  refine shapeCast_apply x1 shapeCasts_S1x1_S_ j (ix2 (0 : Fin 1) (0 : Fin 1)) ?_
  have h1 : (S1x1.rowMajor (ix2 (0 : Fin 1) (0 : Fin 1))).val < 1 := (S1x1.rowMajor (ix2 (0 : Fin 1) (0 : Fin 1))).isLt
  have h2 : (S_.rowMajor j).val < 1 := (S_.rowMajor j).isLt
  rw [Nat.lt_one_iff.mp h1, Nat.lt_one_iff.mp h2]

/-- The reference's last stage is the blend of its two arguments. -/
theorem result_eq (x0 : (⟨S16777216x2, .f32⟩ : BufTy).Contents (Elt Ideal)) (x1 : (⟨S1x1, .f32⟩ : BufTy).Contents (Elt Ideal)) :
    val_main_v11 (F := Ideal) x0 x1 = Cert.Blend.blend x0 (x1 (ix2 (0 : Fin 1) (0 : Fin 1))) := by
  funext i
  have e0 : idx_main_v1 (idx_main_v2 (idx_main_v11 i)) = ix2 (i 0) (0 : Fin 2) :=
    funext fun a => Fin.ext (by
      match a with
      | ⟨0, _⟩ => show (i 0).val / 1 = (i 0).val; omega
      | ⟨1, _⟩ => rfl)
  have e1 : idx_main_v5 (idx_main_v6 (idx_main_v11 i)) = ix2 (i 0) (1 : Fin 2) :=
    funext fun a => Fin.ext (by
      match a with
      | ⟨0, _⟩ => show (i 0).val / 1 = (i 0).val; omega
      | ⟨1, _⟩ => rfl)
  rw [val_main_v11_apply, val_main_v10_apply, val_main_v4_apply, val_main_v9_apply, val_main_v2_apply, val_main_v1_apply,
    val_main_v3_apply, val_main_v6_apply, val_main_v5_apply, val_main_v8_apply, val_main_v7_apply, val_main_cst_apply, e0, e1]
  simp only [weight_apply]
  rfl

end Cert.ReferenceIdeal.Direct

end
-- ==== Proof.Product.lean ====
/-
  The kernel body's one stored value at an entry.  The body multiplies its 4096 × 256 block of packed rows by
  the 256 × 128 selection matrix into a zero accumulator; the changes of float format are the identity on
  the extended reals.  Entry `(p, q)` of the product is therefore the plain sum, over the 256 positions `j`,
  of the packed row's entry `(p, j)` times the matrix's entry `(j, q)`.
-/
import proofs.«408483_j35527969472878_3_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-! The product's dimension record: rows of the left operand are rows of the result, its columns are contracted
    against the rows of the right operand, whose columns are the result's columns. -/

theorem lhs_row (j : S4096x128.Idx) (k : dot_S4096x256_S256x128_S4096x128_1_0_0_1_n_n.contr.Idx) :
    (dot_S4096x256_S256x128_S4096x128_1_0_0_1_n_n.lhsIdx j k (0 : Fin S4096x256.rank)).val = (j 0).val := by
  unfold DotDims.lhsIdx
  rw [dif_neg (show ¬ (0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl

theorem lhs_depth (j : S4096x128.Idx) (k : dot_S4096x256_S256x128_S4096x128_1_0_0_1_n_n.contr.Idx) :
    (dot_S4096x256_S256x128_S4096x128_1_0_0_1_n_n.lhsIdx j k (1 : Fin S4096x256.rank)).val = (k ⟨0, by decide⟩).val :=
  DotDims.lhsIdx_val_of_single (d := dot_S4096x256_S256x128_S4096x128_1_0_0_1_n_n) (cl := (1 : Fin S4096x256.rank)) rfl j k

theorem rhs_depth (j : S4096x128.Idx) (k : dot_S4096x256_S256x128_S4096x128_1_0_0_1_n_n.contr.Idx) :
    (dot_S4096x256_S256x128_S4096x128_1_0_0_1_n_n.rhsIdx j k (0 : Fin S256x128.rank)).val = (k ⟨0, by decide⟩).val :=
  DotDims.rhsIdx_val_of_single (d := dot_S4096x256_S256x128_S4096x128_1_0_0_1_n_n) (cr := (0 : Fin S256x128.rank)) rfl j k

theorem rhs_col (j : S4096x128.Idx) (k : dot_S4096x256_S256x128_S4096x128_1_0_0_1_n_n.contr.Idx) :
    (dot_S4096x256_S256x128_S4096x128_1_0_0_1_n_n.rhsIdx j k (1 : Fin S256x128.rank)).val = (j 1).val := by
  unfold DotDims.rhsIdx
  rw [dif_neg (show ¬ (1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- Entry `(p, q)` of the body's stored value: the 256-term sum of products along packed row `p` and matrix column `q`. -/
theorem product_apply (x0 : Vec Ideal S4096x256 .f32) (x1 : Vec Ideal S256x128 .bf16) (p : Fin 4096) (q : Fin 128) :
    (k0_pay1 (F := Ideal) x0 x1 (ix2 p q) : EReal)
      = ∑ j : Fin 256, ((x0 (ix2 p j) : EReal) * (x1 (ix2 j q) : EReal)) := by
  unfold k0_pay1
  simp only [shapeCast_self]
  refine (Ideal.matmul_constant_zero_apply (φ₁ := .bf16) (φ₂ := .bf16) dot_S4096x256_S256x128_S4096x128_1_0_0_1_n_n none
    (truncf .bf16 x0 bitsLt_bf16_f32) x1 (ix2 p q)).trans ?_
  rw [← Equiv.sum_comp (contrEquiv1 dot_S4096x256_S256x128_S4096x128_1_0_0_1_n_n 256 rfl rfl).symm]
  refine Finset.sum_congr rfl fun j _ => ?_
  have hk := contrEquiv1_symm_val dot_S4096x256_S256x128_S4096x128_1_0_0_1_n_n 256 rfl rfl j
  have hl : dot_S4096x256_S256x128_S4096x128_1_0_0_1_n_n.lhsIdx (ix2 p q)
      ((contrEquiv1 dot_S4096x256_S256x128_S4096x128_1_0_0_1_n_n 256 rfl rfl).symm j) = ix2 p j :=
    funext fun a => Fin.ext (by
      match a with
      | ⟨0, _⟩ => exact lhs_row _ _
      | ⟨1, _⟩ => exact (lhs_depth _ _).trans hk)
  have hr : dot_S4096x256_S256x128_S4096x128_1_0_0_1_n_n.rhsIdx (ix2 p q)
      ((contrEquiv1 dot_S4096x256_S256x128_S4096x128_1_0_0_1_n_n 256 rfl rfl).symm j) = ix2 j q :=
    funext fun a => Fin.ext (by
      match a with
      | ⟨0, _⟩ => exact (rhs_depth _ _).trans hk
      | ⟨1, _⟩ => exact rhs_col _ _)
  rw [hl, hr]
  rfl

end Cert.KernelIdeal.Hand

end
-- ==== Proof.Region.lean ====
/-
  What the region leaves in its output array.  Each of the 32 grid points reads 4096 packed rows (all 256
  positions) and the whole 256 × 128 selection matrix, and writes the 4096 × 128 block of their product; the
  point's rows are rows `4096 t … 4096 t + 4095` of both the packed input and the output.  So every block is the
  matching block of ONE array, the product of all 131072 packed rows with the matrix, and the 32 blocks tile the
  output: after the region the output array is that product.
-/
import proofs.«408483_j35527969472878_3_alg».proof.Proof.Gen.KernelIdeal.Frame
import proofs.«408483_j35527969472878_3_alg».proof.Proof.Product
import proofs.«408483_j35527969472878_3_alg».proof.Proof.Blend
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The packed input and the matrix as the region finds them, as plain functions into the extended reals. -/
abbrev packedIn (c : Dev nD) : S131072x256.Idx → EReal := V m c main_v0
abbrev matrixIn (c : Dev nD) : S256x128.Idx → EReal := V m c main_v18

theorem origin : (![0, 0] : Fin 2 → Nat) = fun _ => 0 := funext fun a => by fin_cases a <;> rfl

/-- The block index maps over the grid: point `t` takes row block `t` of the packed input and of the output, all
    their columns, and the one block of the matrix. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the packed rows and the matrix as the region finds them. -/
theorem flushed_eq (c : Dev nD) (t : Fin cfg0.N) :
    (dats m 0 c).flushed 2 t
      = ((cfg0.win 2).blk t).view.read (Elt Ideal) (Cert.Blend.rowsTimes (V m c main_v0) (V m c main_v18)) := by
  show (cfg0.win 2).cut (grid0.coords t) ((dats m 0 c).after 2 t) = _
  rw [after0_2]
  unfold out0_2
  rw [View.canon_unit_zero origin]
  simp only [View.ld_unit_zero (S := S4096x256) origin, View.ld_unit_zero (S := S256x128) origin]
  obtain ⟨e0, e1, e2, e3, e4, e5⟩ := index_maps t
  funext y
  obtain ⟨p, q, rfl⟩ : ∃ (p : Fin 4096) (q : Fin 128), y = ix2 p q := ⟨y 0, y 1, eq_ix2 y⟩
  show (k0_pay1 (F := Ideal) (iblk m c 0 t) (iblk m c 1 t) (ix2 p q) : EReal)
    = Cert.Blend.rowsTimes (V m c main_v0) (V m c main_v18) (((cfg0.win 2).blk t).view.emb (ix2 p q))
  refine (product_apply (iblk m c 0 t) (iblk m c 1 t) p q).trans ?_
  unfold Cert.Blend.rowsTimes
  refine Finset.sum_congr rfl fun j _ => ?_
  have h0 : ((cfg0.win 0).blk t).view.emb (ix2 p j) = ix2 ((((cfg0.win 2).blk t).view.emb (ix2 p q)) 0) j := by
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 256 + 1 * j.val = j.val; omega
  have h1 : ((cfg0.win 1).blk t).view.emb (ix2 j q) = ix2 j ((((cfg0.win 2).blk t).view.emb (ix2 p q)) 1) := by
    funext a; apply Fin.ext
    match a with
    | ⟨0, _⟩ => show win0_1.index t (0 : Fin 2) * 256 + 1 * j.val = j.val; omega
    | ⟨1, _⟩ => show win0_1.index t (1 : Fin 2) * 128 + 1 * q.val = win0_2.index t (1 : Fin 2) * 128 + 1 * q.val; omega
  show packedIn m c (((cfg0.win 0).blk t).view.emb (ix2 p j)) * matrixIn m c (((cfg0.win 1).blk t).view.emb (ix2 j q)) = _
  rw [h0, h1]
  rfl

/-- An index of the output array lies in point `t`'s block iff each coordinate lies in the block's range. -/
theorem mem_block (t : Fin cfg0.N) (i : S131072x128.Idx) :
    i ∈ ((cfg0.win 2).blk t).view.set
      ↔ ∀ a : Fin 2, win0_2.index t a * S4096x128.size a ≤ (i a).val ∧ (i a).val < win0_2.index t a * S4096x128.size a + S4096x128.size a := by
  show i ∈ ((View.whole main_v19).slice (win0_2.rect t)).set ↔ _
  rw [View.set_slice_whole, Rect.mem_set_unit]
  exact Iff.rfl

/-- Every index of the output array is in the block of the point its row falls in. -/
theorem covered (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  have hN : cfg0.N = 32 := N_0
  refine ⟨⟨(i 0).val / 4096, by rw [hN]; omega⟩, flush0_2 _, ?_⟩
  rw [mem_block]
  obtain ⟨-, -, -, -, e4, e5⟩ := index_maps ⟨(i 0).val / 4096, by rw [hN]; omega⟩
  intro a
  match a with
  | ⟨0, _⟩ =>
    show win0_2.index _ (0 : Fin 2) * 4096 ≤ (i 0).val ∧ (i 0).val < win0_2.index _ (0 : Fin 2) * 4096 + 4096
    rw [e4]; show (i 0).val / 4096 * 4096 ≤ (i 0).val ∧ (i 0).val < (i 0).val / 4096 * 4096 + 4096; omega
  | ⟨1, _⟩ =>
    show win0_2.index _ (1 : Fin 2) * 128 ≤ (i 1).val ∧ (i 1).val < win0_2.index _ (1 : Fin 2) * 128 + 128
    rw [e5]; omega

/-- After the region its output array is the product of the packed rows and the matrix. -/
theorem region_out (c : Dev nD) :
    (dats m 0 c).arrAt 2 cfg0.N = Cert.Blend.rowsTimes (V m c main_v0) (V m c main_v18) :=
  (dats m 0 c).arrAt_eq_of_cover 2 (Cert.Blend.rowsTimes (V m c main_v0) (V m c main_v18)) (fun t _ => flushed_eq m c t) covered

end Cert.KernelIdeal.Hand

end
-- ==== Proof.OneHot.lean ====
/-
  The selection matrix the host builds before the region, read at an entry.  Row `j` of the 256 × 128 matrix is
  compared with column `k` through `j / 2 = k` (the floor division of the row number by two against the column
  number); the kept value is the weight `w` on even rows and `1 - w` on odd rows (the remainder of the row
  number by two against zero), and zero where the comparison fails.  The row numbers are small, so the word
  arithmetic of the floor division and of the remainder meets none of its corner cases: both are decided row by row.
-/
import proofs.«408483_j35527969472878_3_alg».proof.Proof.Gen.KernelIdeal.Frame
import proofs.«408483_j35527969472878_3_alg».proof.Proof.Blend
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo

/-! ## The integer part: which rows pair with which column, and which rows are even -/

/-- The row numbers `0 … 255` as a 256 × 1 column of words. -/
def rowNumbers : IVec S256x1 32 := broadcastInDim S256x1 ![0] bcast_S256_S256x1_0 (iotaInDim S256 32 0)

/-- The floor division of the row numbers by two, as the host spells it: the truncating quotient, lowered by one where
    the signs differ and the division is inexact. -/
def halfRows : IVec S256x1 32 :=
  let d : IVec S_ 32 := constantI S_ 32 2#32
  let q : IVec S256x1 32 := Host.divsi rowNumbers (broadcastInDim S256x1 ![] bcast_S_S256x1 d)
  let signsDiffer : IVec S256x1 1 := cmpi .ne (signi rowNumbers) (broadcastInDim S256x1 ![] bcast_S_S256x1 (signi d))
  let r : IVec S256x1 32 := Host.remsi rowNumbers (broadcastInDim S256x1 ![] bcast_S_S256x1 d)
  let inexact : IVec S256x1 1 := cmpi .ne r (broadcastInDim S256x1 ![] bcast_S_S256x1 (constantI S_ 32 0#32))
  select (andi signsDiffer inexact) (subi q (broadcastInDim S256x1 ![] bcast_S_S256x1 (constantI S_ 32 1#32))) q

/-- The remainder of the row numbers by two, as the host spells it: the truncating remainder, raised by the divisor
    where it is nonzero and its sign differs from the divisor's. -/
def rowRemainders : IVec S256 32 :=
  let d0 : IVec S_ 32 := constantI S_ 32 2#32
  let d : IVec S_ 32 := select (cmpi .eq d0 (constantI S_ 32 0#32)) (constantI S_ 32 1#32) d0
  let r : IVec S256 32 := Host.remsi (iotaInDim S256 32 0) (broadcastInDim S256 ![] bcast_S_S256 d)
  let nonzero : IVec S256 1 := cmpi .ne r (broadcastInDim S256 ![] bcast_S_S256 (constantI S_ 32 0#32))
  let rNeg : IVec S256 1 := cmpi .slt r (broadcastInDim S256 ![] bcast_S_S256 (constantI S_ 32 0#32))
  let dNeg : IVec S256 1 := broadcastInDim S256 ![] bcast_S_S256 (cmpi .slt d (constantI S_ 32 0#32))
  select (andi (cmpi .ne rNeg dNeg) nonzero) (addi r (broadcastInDim S256 ![] bcast_S_S256 d)) r

/-- Which rows are even. -/
def evenRows : IVec S256 1 := cmpi .eq rowRemainders (broadcastInDim S256 ![] bcast_S_S256 (constantI S_ 32 0#32))

/-- Which (row, column) pairs match: half the row number equals the column number. -/
def pairs : IVec S256x128 1 :=
  cmpi .eq (broadcastInDim S256x128 ![0, 1] bcast_S256x1_S256x128_0_1 halfRows)
    (broadcastInDim S256x128 ![0, 1] bcast_S1x128_S256x128_0_1 (broadcastInDim S1x128 ![1] bcast_S128_S1x128_1 (iotaInDim S128 32 0)))

/-- Row `j`'s floor division by two is the word of `j / 2`: decided over the 256 rows. -/
theorem halfRows_apply : ∀ j : Fin 256, halfRows (ix2 j (0 : Fin 1)) = BitVec.ofNat 32 (j.val / 2) := by
  decide +kernel

/-- Row `j` is marked even exactly when `j` is: decided over the 256 rows. -/
theorem evenRows_apply : ∀ j : Fin 256, evenRows (ix1 j) = if j.val % 2 = 0 then 1#1 else 0#1 := by
  decide +kernel

/-- Words of two numbers below 2³² are equal only if the numbers are. -/
theorem ofNat_inj_small {a b : Nat} (ha : a < 2 ^ 32) (hb : b < 2 ^ 32) (h : BitVec.ofNat 32 a = BitVec.ofNat 32 b) : a = b := by
  have := congrArg BitVec.toNat h
  simp only [BitVec.toNat_ofNat] at this
  rw [Nat.mod_eq_of_lt ha, Nat.mod_eq_of_lt hb] at this
  exact this

/-- The pair `(j, k)` matches exactly when `j / 2 = k`. -/
theorem pairs_apply (j : Fin 256) (k : Fin 128) : pairs (ix2 j k) = if j.val / 2 = k.val then 1#1 else 0#1 := by
  have hrow : broadcastInDim S256x128 ![0, 1] bcast_S256x1_S256x128_0_1 halfRows (ix2 j k) = BitVec.ofNat 32 (j.val / 2) :=
    (broadcastInDim_apply _ bcast_S256x1_S256x128_0_1 halfRows (ix2 j k) (ix2 j (0 : Fin 1)) (fun a => by
      match a with
      | ⟨0, _⟩ => show j.val = if (256 : Nat) = 1 then 0 else j.val; rw [if_neg (by decide)]
      | ⟨1, _⟩ => show (0 : Nat) = if (1 : Nat) = 1 then 0 else k.val; rw [if_pos rfl])).trans (halfRows_apply j)
  have hcol : broadcastInDim S256x128 ![0, 1] bcast_S1x128_S256x128_0_1 (broadcastInDim S1x128 ![1] bcast_S128_S1x128_1 (iotaInDim S128 32 0)) (ix2 j k)
      = BitVec.ofNat 32 k.val :=
    (broadcastInDim_apply _ bcast_S1x128_S256x128_0_1 _ (ix2 j k) (ix2 (0 : Fin 1) k) (fun a => by
      match a with
      | ⟨0, _⟩ => show (0 : Nat) = if (1 : Nat) = 1 then 0 else j.val; rw [if_pos rfl]
      | ⟨1, _⟩ => show k.val = if (128 : Nat) = 1 then 0 else k.val; rw [if_neg (by decide)])).trans
    ((broadcastInDim_apply _ bcast_S128_S1x128_1 (iotaInDim S128 32 0) (ix2 (0 : Fin 1) k) (ix1 k) (fun a => by
      match a with
      | ⟨0, _⟩ => show k.val = if (128 : Nat) = 1 then 0 else k.val; rw [if_neg (by decide)])).trans rfl)
  show IntOp.cmpi .eq (broadcastInDim S256x128 ![0, 1] bcast_S256x1_S256x128_0_1 halfRows (ix2 j k)) _ = _
  rw [hrow, hcol]
  have hj := j.isLt
  have hk := k.isLt
  by_cases h : j.val / 2 = k.val
  · rw [if_pos h, h]; exact Predicate.cmpi_eq_iff.mpr rfl
  · rw [if_neg h]
    exact eq_zero_of_ne_one fun h1 => h (ofNat_inj_small (by omega) (by omega) (Predicate.cmpi_eq_iff.mp h1))

/-! ## The matrix -/

/-- The weight column: `ws` on even rows, `cw` on odd rows. -/
def weightColumn (ws cw : FVec Ideal S_ .f32) : FVec Ideal S256x1 .f32 :=
  select (broadcastInDim S256x1 ![0] bcast_S256_S256x1_0 evenRows)
    (broadcastInDim S256x1 ![] bcast_S_S256x1 ws) (broadcastInDim S256x1 ![] bcast_S_S256x1 cw)

/-- A column of zeros. -/
def zeroColumn : FVec Ideal S256x1 .f32 := broadcastInDim S256x1 ![] bcast_S_S256x1 (constant S_ .f32 0x00000000#32)

/-- The selection matrix as the host computes it from the 1 × 1 weight array. -/
def selMatrix (w : (⟨S1x1, .f32⟩ : BufTy).Contents (Elt Ideal)) : (⟨S256x128, .bf16⟩ : BufTy).Contents (Elt Ideal) :=
  truncf .bf16 (select pairs
    (broadcastInDim S256x128 ![0, 1] bcast_S256x1_S256x128_0_1
      (weightColumn (shapeCast S_ w shapeCasts_S1x1_S_) (subf (constant S_ .f32 0x3F800000#32) (shapeCast S_ w shapeCasts_S1x1_S_))))
    (broadcastInDim S256x128 ![0, 1] bcast_S256x1_S256x128_0_1 zeroColumn)) bitsLt_bf16_f32

/-- A 256 × 1 column spread over the 128 columns reads, at `(j, k)`, the column at row `j`. -/
theorem spread_apply (v : FVec Ideal S256x1 .f32) (j : Fin 256) (k : Fin 128) :
    broadcastInDim S256x128 ![0, 1] bcast_S256x1_S256x128_0_1 v (ix2 j k) = v (ix2 j (0 : Fin 1)) :=
  broadcastInDim_apply _ bcast_S256x1_S256x128_0_1 v (ix2 j k) (ix2 j (0 : Fin 1)) (fun a => by
    match a with
    | ⟨0, _⟩ => show j.val = if (256 : Nat) = 1 then 0 else j.val; rw [if_neg (by decide)]
    | ⟨1, _⟩ => show (0 : Nat) = if (1 : Nat) = 1 then 0 else k.val; rw [if_pos rfl])

/-- A scalar spread down a 256 × 1 column reads the scalar. -/
theorem splat_apply (s : FVec Ideal S_ .f32) (j : Fin 256) :
    broadcastInDim S256x1 ![] bcast_S_S256x1 s (ix2 j (0 : Fin 1)) = s ix0 :=
  broadcastInDim_apply _ bcast_S_S256x1 s (ix2 j (0 : Fin 1)) ix0 (fun a => a.elim0)

/-- Row `j` of the weight column: `ws` on even rows, `cw` on odd rows. -/
theorem weightColumn_apply (ws cw : FVec Ideal S_ .f32) (j : Fin 256) :
    weightColumn ws cw (ix2 j (0 : Fin 1)) = if j.val % 2 = 0 then ws ix0 else cw ix0 := by
  have hmark : broadcastInDim S256x1 ![0] bcast_S256_S256x1_0 evenRows (ix2 j (0 : Fin 1)) = if j.val % 2 = 0 then 1#1 else 0#1 :=
    (broadcastInDim_apply _ bcast_S256_S256x1_0 evenRows (ix2 j (0 : Fin 1)) (ix1 j) (fun a => by
      match a with
      | ⟨0, _⟩ => show j.val = if (256 : Nat) = 1 then 0 else j.val; rw [if_neg (by decide)])).trans (evenRows_apply j)
  unfold weightColumn
  rw [select_apply, hmark, splat_apply, splat_apply]
  by_cases h : j.val % 2 = 0
  · rw [if_pos h, if_pos h, select_one]
  · rw [if_neg h, if_neg h, select_zero]

/-- Every row of the zero column is zero. -/
theorem zeroColumn_apply (j : Fin 256) : zeroColumn (ix2 j (0 : Fin 1)) = (0 : EReal) := by
  unfold zeroColumn
  rw [splat_apply]
  exact Ideal.ofBits_zero_f32

/-- The 1 × 1 weight array recast as a scalar holds its one entry. -/
theorem scalar_apply (w : (⟨S1x1, .f32⟩ : BufTy).Contents (Elt Ideal)) :
    (shapeCast S_ w shapeCasts_S1x1_S_ : FVec Ideal S_ .f32) ix0 = w (ix2 (0 : Fin 1) (0 : Fin 1)) := by
  refine shapeCast_apply w shapeCasts_S1x1_S_ ix0 (ix2 (0 : Fin 1) (0 : Fin 1)) ?_
  have h1 : (S1x1.rowMajor (ix2 (0 : Fin 1) (0 : Fin 1))).val < 1 := (S1x1.rowMajor (ix2 (0 : Fin 1) (0 : Fin 1))).isLt
  have h2 : (S_.rowMajor ix0).val < 1 := (S_.rowMajor ix0).isLt
  rw [Nat.lt_one_iff.mp h1, Nat.lt_one_iff.mp h2]

/-- Entry `(j, k)` of the host's matrix is the selection matrix's with weights `w` and `1 - w`, `w` the one entry of the
    weight array. -/
theorem selMatrix_apply (w : (⟨S1x1, .f32⟩ : BufTy).Contents (Elt Ideal)) (j : Fin 256) (k : Fin 128) :
    (selMatrix w (ix2 j k) : EReal)
      = Cert.Blend.sel (w (ix2 (0 : Fin 1) (0 : Fin 1))) (Cert.Blend.one - w (ix2 (0 : Fin 1) (0 : Fin 1))) j k := by
  unfold selMatrix
  rw [truncf_apply, select_apply, pairs_apply, spread_apply, spread_apply, weightColumn_apply, zeroColumn_apply, subf_apply, scalar_apply]
  unfold Cert.Blend.sel
  by_cases h : j.val / 2 = k.val
  · rw [if_pos h, if_pos h, select_one]
    rfl
  · rw [if_neg h, if_neg h, select_zero]

/-! ## The two arrays the region reads, as the host leaves them -/

variable (m : (ℓ : Loc nD τ sig) → Buf (Elt Ideal) ℓ)

/-- The region's second operand is the selection matrix of the launched weight array. -/
theorem V_matrix (c : Dev nD) : V m c main_v18 = selMatrix (m ((c : Thread nD τ).loc main_arg1)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- The region's first operand is the launched input recast to 131072 packed rows of 256. -/
theorem V_packed (c : Dev nD) :
    V m c main_v0 = shapeCast S131072x256 (m ((c : Thread nD τ).loc main_arg0)) shapeCasts_S16777216x2_S131072x256 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.Hand

end
-- ==== Proof.Result.lean ====
/-
  The kernel program's result.  After the region the host recasts the 131072 × 128 product to one column of
  16777216 rows.  The product is the packed input times the selection matrix (Proof/Region.lean), the packed input
  and the matrix are what the host built from the two arguments (Proof/OneHot.lean), and packing, multiplying
  and unpacking is the blend (Proof/Blend.lean): the program ends with the blend of its arguments in its result
  and its arguments unchanged.
-/
import proofs.«408483_j35527969472878_3_alg».proof.Proof.Gen.KernelIdeal.Frame
import proofs.«408483_j35527969472878_3_alg».proof.Proof.Region
import proofs.«408483_j35527969472878_3_alg».proof.Proof.OneHot
import proofs.«408483_j35527969472878_3_alg».proof.Proof.Blend
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The blend of the launched arguments on core `c`. -/
abbrev blended (c : Dev nD) : Buf (Elt Ideal) ((c : Thread nD τ).loc main_v20) :=
  Cert.Blend.blend (m ((c : Thread nD τ).loc main_arg0)) (m ((c : Thread nD τ).loc main_arg1) (ix2 (0 : Fin 1) (0 : Fin 1)))

/-- The region's output array recast to one column is the blend. -/
theorem region_cast (c : Dev nD) :
    shapeCast S16777216x1 ((dats m 0 c).arrAt 2 cfg0.N) shapeCasts_S131072x128_S16777216x1 = blended m c := by
  rw [region_out, V_packed, V_matrix]
  exact Cert.Blend.unpack _ _ _ (selMatrix_apply _) shapeCasts_S16777216x2_S131072x256 shapeCasts_S131072x128_S16777216x1

/-- What the host's last operation leaves in the result: the region's output array recast to one column. -/
theorem result_eq (c : Dev nD) :
    Pipeline.afterTail₀ cfgs (dats m) 0 (V0 m) [hostOps1] c main_v20 = blended m c := by
  unfold Pipeline.afterTail₀
  show StableHlo.after hostOps1 _ (Proc.devRef .tc main_v20) = _
  after_results
  refine Eq.trans ?_ (region_cast m c)
  exact congrArg (fun A => shapeCast S16777216x1 A shapeCasts_S131072x128_S16777216x1)
    (Pipeline.withArrays_arr spec0 launch0.win.arr_inj c (V0 m c) (fun w => (dats m 0 c).arrAt w cfg0.N) 2)

/-- The kernel program's run, read: the result at the blend of the arguments, the arguments unchanged. -/
theorem run : θ_run defs (onTc (τ := τ) (main (F := Ideal))) ⟨m, fun _ => 0, ρ⟩ fun r => ∀ c : Dev nD,
      r.2.mem ((c.tc : Thread nD τ).loc main_v20) = blended m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.lean ====
/-
  The kernel against its reference: out[i] = x[i, 0] * w + x[i, 1] * (1 - w) over 16777216 rows.

  The reference forms the blend directly from the two columns of `x`.  The kernel recasts `x` (row-major) to 131072
  packed rows of 256 interleaved entries, multiplies them block by block by a 256 × 128 selection matrix that holds
  `w` at `(2k, k)`, `1 - w` at `(2k + 1, k)` and zero elsewhere, and recasts the 131072 × 128 product to one column.
  On the extended reals the changes of float format are the identity and `a * 0 = 0` for every `a`, so each entry of
  the product is exactly the two kept terms, and the two programs compute one function of their arguments
  (Proof/Blend.lean: the arithmetic; Proof/RefBlend.lean: the reference; Proof/OneHot.lean, Proof/Product.lean,
  Proof/Region.lean, Proof/Result.lean: the kernel).  The frames are the generated ones; the idealization rewrote
  nothing, so `preserves` is trivial.
-/
import proofs.«408483_j35527969472878_3_alg».proof.Defs
import proofs.«408483_j35527969472878_3_alg».proof.Proof.Gen.Kernel
import proofs.«408483_j35527969472878_3_alg».proof.Proof.Gen.Kernel.Skeleton
import proofs.«408483_j35527969472878_3_alg».proof.Proof.Gen.Kernel.Launch
import proofs.«408483_j35527969472878_3_alg».proof.Proof.Gen.Kernel.Points
import proofs.«408483_j35527969472878_3_alg».proof.Proof.Gen.Kernel.Frame
import proofs.«408483_j35527969472878_3_alg».proof.Proof.Gen.KernelIdeal
import proofs.«408483_j35527969472878_3_alg».proof.Proof.Gen.KernelIdeal.Skeleton
import proofs.«408483_j35527969472878_3_alg».proof.Proof.Gen.KernelIdeal.Launch
import proofs.«408483_j35527969472878_3_alg».proof.Proof.Gen.KernelIdeal.Points
import proofs.«408483_j35527969472878_3_alg».proof.Proof.Gen.KernelIdeal.Frame
import proofs.«408483_j35527969472878_3_alg».proof.Proof.Gen.ReferenceIdeal
import proofs.«408483_j35527969472878_3_alg».proof.Proof.Gen.ReferenceIdeal.Run
import proofs.«408483_j35527969472878_3_alg».proof.Proof.Gen.ReferenceIdeal.Read
import proofs.«408483_j35527969472878_3_alg».proof.Proof.Gen.Pre_finite_inputs
import proofs.«408483_j35527969472878_3_alg».proof.Proof.RefBlend
import proofs.«408483_j35527969472878_3_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the blend of their (agreeing) arguments. -/
theorem algebraic : Cert.algebraic_KernelIdeal_ReferenceIdeal := by
  intro m ρ m' ρ' _ hagree
  refine ⟨fun c => Cert.KernelIdeal.Hand.blended m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Direct.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
